-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x1024 : Shape := ⟨2, ![1024, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x4096x1024 .f32) (main_arg1 : FVec F S1024x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16x4096x1024 : Shape := ⟨3, ![16, 4096, 1024]⟩
abbrev S1024x1024 : Shape := ⟨2, ![1024, 1024]⟩
abbrev S65536x1024 : Shape := ⟨2, ![65536, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S65536x1024, .f32⟩
  | .hbm, ⟨7, _⟩ => ⟨S16x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x1024_S65536x1024 : S16x4096x1024.ShapeCasts S65536x1024
  bitsLt_bf16_f32 : FTy.bits .bf16 < FTy.bits .f32
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S65536x1024_S16x4096x1024 : S65536x1024.ShapeCasts S16x4096x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16x4096x1024, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  dot_S16x4096x1024_S1024x1024_S16x4096x1024_2_1_01_0_n_n_wf : DotDims.WF S16x4096x1024 S1024x1024 S16x4096x1024 [2] [1] [0, 1] [0] [] []
  dot_S16x4096x1024_S1024x1024_S16x4096x1024_2_0_01_1_n_n_wf : DotDims.WF S16x4096x1024 S1024x1024 S16x4096x1024 [2] [0] [0, 1] [1] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x4096x1024_S1024x1024_S16x4096x1024_2_0_01_1_n_n : DotDims S16x4096x1024 S1024x1024 S16x4096x1024 where
  lhsContracting := [2]
  rhsContracting := [0]
  lhsNonContracting := [0, 1]
  rhsNonContracting := [1]
  lhsBatch := []
  rhsBatch := []
  wf := dot_S16x4096x1024_S1024x1024_S16x4096x1024_2_0_01_1_n_n_wf

class Facts : Prop extends Facts₀ where

variable [Facts]
-- ==== Proof.Spec.lean ====
/-
  Label attention without the softmax, over the extended reals.

  For inputs `x : [16, 4096, 1024]` and a square weight `w : [1024, 1024]` the result at `(b, t, e)` is
    `∑ u, ((∑ d, x[b, t, d] · w[u, d]) · 2⁻⁵) · w[u, e]`:
  the scores of row `(b, t)` against every row `u` of `w`, scaled by `1 / √1024 = 2⁻⁵`, contracted again with
  the columns of `w`. Both programs compute exactly this nest of two sums, in this order and grouping, so the
  equation between them needs no law of the extended reals beyond reading the scale: the kernel writes it as the
  dyadic `2⁻⁵` (the word `0x3D000000`), the reference as `1 / √1024`, and `√1024 = 32` because `1024 = 32²`.
-/
import Idealize.ShloMosaic.PureOps.Ideal
import Idealize.ShloMosaic.PureOps.Ideal.Laws
import Idealize.ShloMosaic.Lib.ValueIdx

noncomputable section

open scoped BigOperators

namespace Cert.LabelAttention

open Idealize.ShloMosaic Idealize.ShloMosaic.ValueIdx

/-! ## The scale -/

/-- The word `0x3D000000` is the dyadic `2⁻⁵ = 1/32`. -/
theorem ofBits_inv32 : Ideal.ofBits .f32 0x3D000000#32 = ((1 / 32 : ℝ) : EReal) := by
  simp [Ideal.ofBits, Ideal.ieee, -EReal.coe_mul]; norm_num

/-- The word `0x3F800000` is `1`. -/
theorem ofBits_one : Ideal.ofBits .f32 0x3F800000#32 = ((1 : ℝ) : EReal) := by
  simp [Ideal.ofBits, Ideal.ieee, -EReal.coe_mul]; norm_num

/-- The word `0x44800000` is `1024 = 2¹⁰`. -/
theorem ofBits_1024 : Ideal.ofBits .f32 0x44800000#32 = ((1024 : ℝ) : EReal) := by
  simp [Ideal.ofBits, Ideal.ieee, -EReal.coe_mul]; norm_num

/-- `1024` is the square of `32`. -/
theorem sqrt_1024 : Real.sqrt 1024 = 32 := by
  rw [show (1024 : ℝ) = 32 ^ 2 by norm_num]
  exact Real.sqrt_sq (by norm_num)

/-- The reference's scale, `1 / √1024` with the exact quotient and the exact root, is `1/32`. -/
theorem one_div_sqrt_1024 :
    Ideal.div (Ideal.ofBits .f32 0x3F800000#32) (Ideal.sqrt (Ideal.ofBits .f32 0x44800000#32)) = ((1 / 32 : ℝ) : EReal) := by
  rw [ofBits_one, ofBits_1024, Ideal.sqrt_coe, if_neg (by norm_num), sqrt_1024,
    Ideal.div_coe (by norm_num : (32 : ℝ) ≠ 0), EReal.coe_one, one_mul]

/-! ## The function both programs compute -/

/-- The scores of row `(b, t)` of `x` against row `u` of `w`, scaled: `(∑ d, x[b, t, d] · w[u, d]) · 2⁻⁵`. -/
def score (x : (⟨3, ![16, 4096, 1024]⟩ : Shape).Idx → EReal) (w : (⟨2, ![1024, 1024]⟩ : Shape).Idx → EReal)
    (b : Fin 16) (t : Fin 4096) (u : Fin 1024) : EReal :=
  (∑ d : Fin 1024, x (ix3 b t d) * w (ix2 u d)) * ((1 / 32 : ℝ) : EReal)

/-- The result: the scaled scores contracted with the columns of `w`, `∑ u, score[b, t, u] · w[u, e]`. -/
def labelAttn (x : (⟨3, ![16, 4096, 1024]⟩ : Shape).Idx → EReal) (w : (⟨2, ![1024, 1024]⟩ : Shape).Idx → EReal) :
    (⟨3, ![16, 4096, 1024]⟩ : Shape).Idx → EReal :=
  fun i => ∑ u : Fin 1024, score x w (i 0) (i 1) u * w (ix2 u (i 2))

end Cert.LabelAttention

end
-- ==== Proof.Reference.lean ====
/-
  The reference program's result is `labelAttn` of its two arguments.

  Its last operation contracts the scaled scores with `w` over `u`; the scaled scores are the first contraction,
  over `d`, times the scalar `1 / √1024` broadcast to every entry. Read one operation at a time at an index, the
  operand indices are `(b, t, d)`, `(u, d)` and `(u, e)`, and the scalar is `1/32`.
-/
import proofs.«176121_j32384053412296_1_alg».proof.Proof.Gen.ReferenceIdeal.Read
import proofs.«176121_j32384053412296_1_alg».proof.Proof.Spec

noncomputable section

open scoped BigOperators

namespace Cert.LabelAttention.Reference

open Cert.ReferenceIdeal Cert.ReferenceIdeal.Read Idealize.ShloMosaic Idealize.ShloMosaic.ValueIdx Cert.LabelAttention

/-- The left operand of the first contraction, inside the second: row `(b, t)` of `x` at `d`. -/
theorem lidx_v2_eq (i : S16x4096x1024.Idx) (u d : Fin 1024) :
    lidx_main_v2 (lidx_main_v5 i u) d = ix3 (i 0) (i 1) d :=
  funext fun a => by match a with | ⟨0, _⟩ => rfl | ⟨1, _⟩ => rfl | ⟨2, _⟩ => rfl

/-- The right operand of the first contraction: row `u` of `w` at `d`. -/
theorem ridx_v2_eq (i : S16x4096x1024.Idx) (u d : Fin 1024) :
    ridx_main_v2 (lidx_main_v5 i u) d = ix2 u d :=
  funext fun a => by match a with | ⟨0, _⟩ => rfl | ⟨1, _⟩ => rfl

/-- The right operand of the second contraction: row `u` of `w` at the result's column. -/
theorem ridx_v5_eq (i : S16x4096x1024.Idx) (u : Fin 1024) :
    ridx_main_v5 i u = ix2 u (i 2) :=
  funext fun a => by match a with | ⟨0, _⟩ => rfl | ⟨1, _⟩ => rfl

/-- THE REFERENCE IS `labelAttn`: each entry of its result is `∑ u, ((∑ d, x[b,t,d]·w[u,d]) · 1/32) · w[u,e]`. -/
theorem result_eq (x : (⟨S16x4096x1024, .f32⟩ : BufTy).Contents (Elt Ideal)) (w : (⟨S1024x1024, .f32⟩ : BufTy).Contents (Elt Ideal)) :
    val_main_v5 (F := Ideal) x w = labelAttn x w := by
  funext i
  rw [val_main_v5_apply]
  unfold labelAttn score
  refine Finset.sum_congr rfl fun u _ => ?_
  rw [val_main_v4_apply, val_main_v2_apply, val_main_v3_apply, val_main_v1_apply, val_main_cst_0_apply,
    val_main_v0_apply, val_main_cst_apply, ridx_v5_eq]
  simp only [lidx_v2_eq, ridx_v2_eq, Ideal.mulf_def, Ideal.hostDivf_def, Ideal.hostUnary_sqrt_def, Ideal.ofBits_def,
    one_div_sqrt_1024]
  rfl

end Cert.LabelAttention.Reference

end
-- ==== Proof.Body.lean ====
/-
  What the kernel body stores, read at an index.

  At one grid point the body holds a block `x : [512, 1024]` of input rows and the two whole weight arrays, one
  as `w : [1024, 1024]` and one transposed, `wT[d, u] = w[u, d]`. It stores
    `(((x · wT) · 2⁻⁵) · w)[r, e] = ∑ u, ((∑ d, x[r, d] · wT[d, u]) · 2⁻⁵) · w[u, e]`:
  two block products into a zero accumulator with the scalar `2⁻⁵` between them. The changes of format around the
  products are the identity on extended reals, and the shape casts are between equal shapes.
-/
import proofs.«176121_j32384053412296_1_alg».proof.Proof.Gen.KernelIdeal.Skeleton
import proofs.«176121_j32384053412296_1_alg».proof.Proof.Spec
import Idealize.ShloMosaic.Lib.Pipeline.Value
import Idealize.ShloMosaic.Lib.ValueIdx
import Idealize.ShloMosaic.PureOps.Ideal.Laws

noncomputable section

open scoped BigOperators

namespace Cert.LabelAttention.Body

open Cert.KernelIdeal Cert.KernelIdeal.Gen Idealize.ShloMosaic Idealize.ShloMosaic.ValueIdx Cert.LabelAttention

/-! ## A block product read at an index

The product's dimension numbers contract the left operand's axis 1 with the right operand's axis 0; the left
operand's axis 0 and the right operand's axis 1 are the result's row and column. -/

theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A `[512, 1024] × [1024, 1024]` product into the zero accumulator, at `(r, e)`: `∑ k, a[r, k] · b[k, e]`. -/
theorem matmul_zero_apply {φ₁ φ₂ : FTy} (a : FVec Ideal S512x1024 φ₁) (b : FVec Ideal S1024x1024 φ₂) (r : Fin 512) (e : Fin 1024) :
    matmul dot_S512x1024_S1024x1024_S512x1024_1_0_0_1_n_n none a b (constant (F := Ideal) S512x1024 .f32 0x00000000#32) (ix2 r e)
      = ∑ k : Fin 1024, a (ix2 r k) * b (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (rhs_contr _ _).trans hk
    | ⟨1, _⟩ => exact rhs_col _ _)
  rw [el, er]

/-! ## The stored value -/

/-- THE BODY'S STORE at `(r, e)`, from the three loaded blocks: `∑ u, ((∑ d, x[r,d] · wT[d,u]) · 1/32) · w[u,e]`. -/
theorem stored_apply (x : Vec Ideal S512x1024 .f32) (wT : Vec Ideal S1024x1024 .bf16) (w : Vec Ideal S1024x1024 .bf16)
    (r : Fin 512) (e : Fin 1024) :
    k0_pay1 (F := Ideal) x wT w (ix2 r e)
      = ∑ u : Fin 1024, ((∑ d : Fin 1024, x (ix2 r d) * wT (ix2 d u)) * ((1 / 32 : ℝ) : EReal)) * w (ix2 u e) := by
  unfold k0_pay1
  rw [matmul_zero_apply]
  refine Finset.sum_congr rfl fun u _ => ?_
  simp only [shapeCast_self]
  refine congrArg (· * w (ix2 u e)) ?_
  show (matmul dot_S512x1024_S1024x1024_S512x1024_1_0_0_1_n_n none _ _ (constant (F := Ideal) S512x1024 .f32 0x00000000#32) (ix2 r u)) * Ideal.ofBits .f32 0x3D000000#32 = _
  rw [matmul_zero_apply, ofBits_inv32]
  rfl

end Cert.LabelAttention.Body

end
-- ==== Proof.Region.lean ====
/-
  The array the kernel region leaves, as one function of the three arrays it reads.

  The region sees the input as `X : [65536, 1024]` (row `b · 4096 + t` is row `(b, t)` of the input), the weight
  `W : [1024, 1024]` and its transpose `WT`. Grid point `p` of 128 takes rows `512 p … 512 p + 511` of `X` and the
  whole of `W` and `WT`, and writes rows `512 p … 512 p + 511` of the result. Row `n` of the result depends on row
  `n` of `X` only, so every block written is the restriction of
    `flat X W WT [n, e] = ∑ u, ((∑ d, X[n, d] · WT[d, u]) · 2⁻⁵) · W[u, e]`,
  and the 128 blocks tile the rows: the array ends holding `flat X W WT`.
-/
import proofs.«176121_j32384053412296_1_alg».proof.Proof.Gen.KernelIdeal.Frame
import proofs.«176121_j32384053412296_1_alg».proof.Proof.Body
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.LabelAttention.Region

open Cert.KernelIdeal Cert.KernelIdeal.Gen Idealize.ShloMosaic.ValueIdx Cert.LabelAttention

variable (m : (ℓ : Loc nD τ sig) → Buf (Elt Ideal) ℓ) (ρ : Dev nD → PrngReg)

theorem hz : (![0, 0] : Fin 2 → Nat) = fun _ => 0 := funext fun a => by fin_cases a <;> rfl

/-- The region's result at row `n`, column `e`: `∑ u, ((∑ d, X[n, d] · WT[d, u]) · 1/32) · W[u, e]`. -/
def flat (X : S65536x1024.Idx → EReal) (W WT : S1024x1024.Idx → EReal) : S65536x1024.Idx → EReal :=
  fun i => ∑ u : Fin 1024, ((∑ d : Fin 1024, X (ix2 (i 0) d) * WT (ix2 d u)) * ((1 / 32 : ℝ) : EReal)) * W (ix2 u (i 1))

/-- What the body stores at `y` of its block is `flat` at `k`, whenever the body's row block agrees with row `k 0` of
    `X` on row `y 0`, its two weight blocks are `W` and `WT`, and `k` has `y`'s column. -/
theorem stored_eq_flat (x : Vec Ideal S512x1024 .f32) (wT w : Vec Ideal S1024x1024 .bf16)
    (X : S65536x1024.Idx → EReal) (W WT : S1024x1024.Idx → EReal) (y : S512x1024.Idx) (k : S65536x1024.Idx)
    (hx : ∀ d : Fin 1024, x (ix2 (y 0) d) = X (ix2 (k 0) d)) (hw : w = W) (hwT : wT = WT) (hk : (k 1).val = (y 1).val) :
    k0_pay1 (F := Ideal) x wT w y = flat X W WT k := by
  subst hw hwT
  obtain ⟨r, e, rfl⟩ : ∃ (r : Fin 512) (e : Fin 1024), y = ix2 r e := ⟨y 0, y 1, eq_ix2 y⟩
  have hx' : ∀ d : Fin 1024, x (ix2 r d) = X (ix2 (k 0) d) := hx
  have hk' : k 1 = e := Fin.ext hk
  rw [Body.stored_apply]
  unfold flat
  rw [hk']
  simp only [hx']

/-- The printed index maps over the 128 points: the input rows move with the output rows, block `p` at point `p`;
    the weight windows stay at block `(0, 0)`; no window moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point `t` is rows `512 t … 512 t + 511` of the array of rows. -/
theorem rows_block (c : Dev nD) (t : Fin cfg0.N) (y : S512x1024.Idx) (k : S65536x1024.Idx)
    (hk0 : (k 0).val = 512 * t.val + (y 0).val) (hk1 : (k 1).val = (y 1).val) :
    (iblk m c 0 t : Vec Ideal S512x1024 .f32) y = (V m c main_v0 : S65536x1024.Idx → EReal) k := by
  obtain ⟨e0, e1, -, -, -, -, e6, -⟩ := idx_facts t
  unfold iblk
  rw [View.read_apply]
  show V m c main_v0 _ = V m c main_v0 k
  refine congrArg (V m c main_v0) (funext fun a => Fin.ext ?_)
  match a with
  | ⟨0, _⟩ => show win0_0.index t (0 : Fin 2) * 512 + 1 * (y 0).val = (k 0).val; rw [e0, e6, hk0]; omega
  | ⟨1, _⟩ => show win0_0.index t (1 : Fin 2) * 1024 + 1 * (y 1).val = (k 1).val; rw [e1, hk1]; omega

/-- The weight window's block at every point is the whole weight array. -/
theorem weight_block (c : Dev nD) (t : Fin cfg0.N) :
    (iblk m c 1 t : Vec Ideal S1024x1024 .bf16) = (V m c main_v1 : S1024x1024.Idx → EReal) := by
  obtain ⟨-, -, e2, e3, -, -, -, -⟩ := idx_facts t
  funext y
  unfold iblk
  rw [View.read_apply]
  show V m c main_v1 _ = V m c main_v1 y
  refine congrArg (V m c main_v1) (funext fun a => Fin.ext ?_)
  match a with
  | ⟨0, _⟩ => show win0_1.index t (0 : Fin 2) * 1024 + 1 * (y 0).val = (y 0).val; rw [e2]; omega
  | ⟨1, _⟩ => show win0_1.index t (1 : Fin 2) * 1024 + 1 * (y 1).val = (y 1).val; rw [e3]; omega

/-- The transposed weight window's block at every point is the whole transposed array. -/
theorem weightT_block (c : Dev nD) (t : Fin cfg0.N) :
    (iblk m c 2 t : Vec Ideal S1024x1024 .bf16) = (V m c main_v3 : S1024x1024.Idx → EReal) := by
  obtain ⟨-, -, -, -, e4, e5, -, -⟩ := idx_facts t
  funext y
  unfold iblk
  rw [View.read_apply]
  show V m c main_v3 _ = V m c main_v3 y
  refine congrArg (V m c main_v3) (funext fun a => Fin.ext ?_)
  match a with
  | ⟨0, _⟩ => show win0_2.index t (0 : Fin 2) * 1024 + 1 * (y 0).val = (y 0).val; rw [e4]; omega
  | ⟨1, _⟩ => show win0_2.index t (1 : Fin 2) * 1024 + 1 * (y 1).val = (y 1).val; rw [e5]; omega

/-- WHAT POINT `t` WRITES BACK is block `t` of `flat` of the three arrays as the region finds them. -/
theorem flushed_eq (c : Dev nD) (t : Fin cfg0.N) :
    (dats m 0 c).flushed 3 t
      = ((cfg0.win 3).blk t).view.read (Elt Ideal) (flat (V m c main_v0) (V m c main_v1) (V m c main_v3)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1024x1024) hz]
  obtain ⟨-, -, -, -, -, -, e6, e7⟩ := idx_facts t
  funext j
  rw [View.read_apply]
  refine stored_eq_flat (iblk m c 0 t) (iblk m c 2 t) (iblk m c 1 t) (V m c main_v0) (V m c main_v1) (V m c main_v3)
    ((cfg0.win 3).xinj (grid0.coords t) j) (((cfg0.win 3).blk t).view.emb j) (fun d => ?_)
    (weight_block m c t) (weightT_block m c t) ?_
  · exact rows_block m c t _ _
      (show win0_3.index t (0 : Fin 2) * 512 + 1 * (j 0).val = 512 * t.val + (j 0).val by rw [e6]; omega) rfl
  · show win0_3.index t (1 : Fin 2) * 1024 + 1 * (j 1).val = (j 1).val
    rw [e7]; omega

/-- An index of the result array is in point `t`'s block iff each coordinate is in the block's range on its axis. -/
theorem mem_blk (t : Fin cfg0.N) (i : S65536x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v4).slice (win0_3.rect t)).set ↔ _
  rw [View.set_slice_whole, Rect.mem_set_unit]
  exact Iff.rfl

/-- Row `n` is written back by point `n / 512`: the blocks tile the array. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1024 ≤ (i 1).val ∧ (i 1).val < win0_3.index t (1 : Fin 2) * 1024 + 1024
    rw [e7]; omega

/-- THE RESULT ARRAY after the region: `flat` of the three arrays as the region finds them. -/
theorem final (c : Dev nD) :
    (dats m 0 c).arrAt 3 cfg0.N = flat (V m c main_v0) (V m c main_v1) (V m c main_v3) :=
  (dats m 0 c).arrAt_eq_of_cover 3 _ (fun t _ => flushed_eq m c t) covered

end Cert.LabelAttention.Region

end
-- ==== Proof.Kernel.lean ====
/-
  The kernel program's result is `labelAttn` of its two arguments.

  Before the region the program lays the input out as `[65536, 1024]` rows (row `b · 4096 + t` is row `(b, t)`),
  and prepares the weight twice: as it is, and transposed (both through a change of format, the identity on extended
  reals). After the region it lays the `[65536, 1024]` result out as `[16, 4096, 1024]` again. With
  `WT[d, u] = W[u, d]`, the region's `flat` at row `b · 4096 + t` is `labelAttn` at `(b, t)`.
-/
import proofs.«176121_j32384053412296_1_alg».proof.Proof.Region

noncomputable section

open scoped BigOperators
open Idealize.ShloMosaic Idealize.ShloMosaic.TcCoe Idealize.SL.Sem
open Idealize.ShloMosaic.Pipeline (Dat)

namespace Cert.LabelAttention.Kernel

open Cert.KernelIdeal Cert.KernelIdeal.Gen Idealize.ShloMosaic.ValueIdx Cert.LabelAttention Cert.LabelAttention.Region

/-! ## The layout around `flat` -/

/-- `flat` of the input laid out as rows, the weight and its transpose, laid out as `[16, 4096, 1024]` again, is
    `labelAttn`: row `b · 4096 + t` of the rows is row `(b, t)` of the input, and `WT[d, u] = W[u, d]`. -/
theorem unflatten (x : S16x4096x1024.Idx → EReal) (w : S1024x1024.Idx → EReal) :
    shapeCast S16x4096x1024
        (flat (shapeCast S65536x1024 x shapeCasts_S16x4096x1024_S65536x1024)
          (truncf (F := Ideal) (φ := .f32) .bf16 w bitsLt_bf16_f32)
          (truncf (F := Ideal) (φ := .f32) .bf16 (transpose S1024x1024 [1, 0] w transposes_S1024x1024_S1024x1024_1_0) bitsLt_bf16_f32))
        shapeCasts_S65536x1024_S16x4096x1024
      = labelAttn x w := by
  funext i
  obtain ⟨b, t, e, rfl⟩ : ∃ (b : Fin 16) (t : Fin 4096) (e : Fin 1024), i = ix3 b t e := ⟨i 0, i 1, i 2, eq_ix3 i⟩
  have hn : b.val * 4096 + t.val < 65536 := by have := b.isLt; have := t.isLt; omega
  rw [shapeCast_apply _ shapeCasts_S65536x1024_S16x4096x1024 (ix3 b t e) (ix2 (⟨b.val * 4096 + t.val, hn⟩ : Fin 65536) e)
    (by rw [Shape.rowMajor_val_two, Shape.rowMajor_val_three]; rfl)]
  unfold flat labelAttn score
  refine Finset.sum_congr rfl fun u _ => ?_
  refine congrArg (· * w (ix2 u e)) ?_
  refine congrArg (· * ((1 / 32 : ℝ) : EReal)) ?_
  refine Finset.sum_congr rfl fun d _ => ?_
  rw [shapeCast_apply x shapeCasts_S16x4096x1024_S65536x1024 (ix2 (⟨b.val * 4096 + t.val, hn⟩ : Fin 65536) d) (ix3 b t d)
    (by rw [Shape.rowMajor_val_two, Shape.rowMajor_val_three]; rfl)]
  refine congrArg (x (ix3 b t d) * ·) ?_
  exact transpose_apply [1, 0] w transposes_S1024x1024_S1024x1024_1_0 (ix2 d u) (ix2 u d)
    (fun a => by match a with | ⟨0, _⟩ => rfl | ⟨1, _⟩ => rfl)

/-! ## The arrays as the region finds them, and the result after it -/

variable (m : (ℓ : Loc nD τ sig) → Buf (Elt Ideal) ℓ) (ρ : Dev nD → PrngReg)

/-- The rows the region reads: the input, laid out as `[65536, 1024]`. -/
theorem rows_eq (c : Dev nD) :
    (V m c main_v0 : S65536x1024.Idx → EReal)
      = shapeCast S65536x1024 (m ((c : Thread nD τ).loc main_arg0)) shapeCasts_S16x4096x1024_S65536x1024 := by
  show StableHlo.after hostOps0 (fun b => m (c, b)) (Proc.devRef .tc main_v0) = _
  after_results
  rfl

/-- The weight the region reads: the argument through a change of format. -/
theorem weight_eq (c : Dev nD) :
    (V m c main_v1 : S1024x1024.Idx → EReal)
      = truncf (F := Ideal) (φ := .f32) .bf16 (m ((c : Thread nD τ).loc main_arg1)) bitsLt_bf16_f32 := by
  show StableHlo.after hostOps0 (fun b => m (c, b)) (Proc.devRef .tc main_v1) = _
  after_results

/-- The transposed weight the region reads: the argument transposed, through a change of format. -/
theorem weightT_eq (c : Dev nD) :
    (V m c main_v3 : S1024x1024.Idx → EReal)
      = truncf (F := Ideal) (φ := .f32) .bf16
          (transpose S1024x1024 [1, 0] (m ((c : Thread nD τ).loc main_arg1)) transposes_S1024x1024_S1024x1024_1_0) bitsLt_bf16_f32 := by
  show StableHlo.after hostOps0 (fun b => m (c, b)) (Proc.devRef .tc main_v3) = _
  after_results

/-- THE PROGRAM'S RESULT: after the line that follows the region, the result buffer holds `labelAttn` of the
    two arguments. -/
theorem result_eq (c : Dev nD) :
    Pipeline.afterTail₀ cfgs (dats m) 0 (V0 m) [hostOps1] c main_v5
      = labelAttn (m ((c : Thread nD τ).loc main_arg0)) (m ((c : Thread nD τ).loc main_arg1)) := by
  unfold Pipeline.afterTail₀
  show StableHlo.after hostOps1 _ (Proc.devRef .tc main_v5) = _
  after_results
  have h4 := (Pipeline.withArrays_arr spec0 launch0.win.arr_inj c (V0 m c) (fun w => (dats m 0 c).arrAt w cfg0.N) 3).trans (final m c)
  rw [rows_eq, weight_eq, weightT_eq] at h4
  refine Eq.trans ?_ (unflatten (m ((c : Thread nD τ).loc main_arg0)) (m ((c : Thread nD τ).loc main_arg1)))
  exact congrArg (fun A => shapeCast S16x4096x1024 A shapeCasts_S65536x1024_S16x4096x1024) h4

/-- The kernel program's run, read: every weakly fair execution ends with the result buffer at `labelAttn` of the
    arguments and the arguments as they were. -/
theorem run : θ_run defs (onTc (τ := τ) (main (F := Ideal))) ⟨m, fun _ => 0, ρ⟩ fun r => ∀ c : Dev nD,
      r.2.mem ((c : Thread nD τ).loc main_v5) = labelAttn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.LabelAttention.Kernel

end
-- ==== Proof.lean ====
/-
  Label attention without the softmax: a fused two-product kernel against its einsum reference, over the extended reals.

  Both programs compute, for `x : [16, 4096, 1024]` and `w : [1024, 1024]`,
    `out[b, t, e] = ∑ u, ((∑ d, x[b, t, d] · w[u, d]) · 2⁻⁵) · w[u, e]`   (`labelAttn`, Proof/Spec.lean).
  The kernel lays `x` out as 65536 rows, takes 512 rows per grid point with the weight and its transpose resident,
  forms the scores by one block product, scales them by the dyadic `2⁻⁵`, and contracts them with the weight by a
  second block product; its changes of format are the identity on extended reals. The reference contracts, scales
  by `1 / √1024` and contracts again. The two nests of sums are the same, term for term and in the same grouping,
  and `1 / √1024 = 1/32` because `1024 = 32²`: no law of the extended reals that could fail at an infinity is
  used, and the finiteness of the inputs is never opened.

  Proof/Spec.lean       the function and the scale;
  Proof/Reference.lean  the reference's result is that function;
  Proof/Body.lean       what the kernel body stores, at an index;
  Proof/Region.lean     the array the region leaves: every block a restriction of one function, the blocks tiling it;
  Proof/Kernel.lean     the layout before and after the region; the kernel's run.
  No operation of the kernel is replaced for its reading over the extended reals, so `preserves` has nothing to state.
-/
import proofs.«176121_j32384053412296_1_alg».proof.Defs
import proofs.«176121_j32384053412296_1_alg».proof.Proof.Gen.Kernel
import proofs.«176121_j32384053412296_1_alg».proof.Proof.Gen.Kernel.Skeleton
import proofs.«176121_j32384053412296_1_alg».proof.Proof.Gen.Kernel.Launch
import proofs.«176121_j32384053412296_1_alg».proof.Proof.Gen.Kernel.Points
import proofs.«176121_j32384053412296_1_alg».proof.Proof.Gen.Kernel.Frame
import proofs.«176121_j32384053412296_1_alg».proof.Proof.Gen.KernelIdeal
import proofs.«176121_j32384053412296_1_alg».proof.Proof.Gen.KernelIdeal.Skeleton
import proofs.«176121_j32384053412296_1_alg».proof.Proof.Gen.KernelIdeal.Launch
import proofs.«176121_j32384053412296_1_alg».proof.Proof.Gen.KernelIdeal.Points
import proofs.«176121_j32384053412296_1_alg».proof.Proof.Gen.KernelIdeal.Frame
import proofs.«176121_j32384053412296_1_alg».proof.Proof.Gen.ReferenceIdeal
import proofs.«176121_j32384053412296_1_alg».proof.Proof.Gen.Pre_finite_inputs
import proofs.«176121_j32384053412296_1_alg».proof.Proof.Gen.ReferenceIdeal.Run
import proofs.«176121_j32384053412296_1_alg».proof.Proof.Gen.ReferenceIdeal.Read
import proofs.«176121_j32384053412296_1_alg».proof.Proof.Reference
import proofs.«176121_j32384053412296_1_alg».proof.Proof.Kernel
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `w`, both programs end with their result at `labelAttn x w`. -/
theorem algebraic : Cert.algebraic_KernelIdeal_ReferenceIdeal := by
  intro m ρ m' ρ' _ hagree
  refine ⟨fun c => Cert.LabelAttention.labelAttn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.LabelAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.LabelAttention.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
